-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x800000 32) (main_arg1 : FVec F S50000x64 .f32) (main_arg2 : FVec F S800000x32 .f32) (main_arg3 : FVec F S160x128 .f32) (main_arg4 : FVec F S128 .f32) (main_arg5 : FVec F S128x64 .f32) (main_arg6 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S1x64 : Shape := ⟨2, ![1, 64]⟩
abbrev S4000x32 : Shape := ⟨2, ![4000, 32]⟩
abbrev S4000x64 : Shape := ⟨2, ![4000, 64]⟩
abbrev S32x128 : Shape := ⟨2, ![32, 128]⟩
abbrev S64x128 : Shape := ⟨2, ![64, 128]⟩
abbrev S4000x128 : Shape := ⟨2, ![4000, 128]⟩

abbrev nBuf : Space → Nat
  | .hbm => 32
  | .vmem => 12
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S1x128, .f32⟩
  | .hbm, ⟨30, _⟩ => ⟨S1x64, .f32⟩
  | .hbm, ⟨31, _⟩ => ⟨S800000x64, .f32⟩
  | .local _ .vmem, ⟨0, _⟩ => ⟨S4000x32, .f32⟩
  | .local _ .vmem, ⟨1, _⟩ => ⟨S4000x32, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S160x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S160x128_S160x128_0_0 : ∀ a, (![0, 0] : Fin 2 → Nat) a + S160x128.size a ≤ S160x128.size a
  h_S160x128 : 0 < S160x128.numel
  slices_S160x128_o0_0_S32x128 : S160x128.Slices ![0, 0] S32x128
  slices_S160x128_o32_0_S64x128 : S160x128.Slices ![32, 0] S64x128
  slices_S160x128_o96_0_S64x128 : S160x128.Slices ![96, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S50000x64_S800000x1_S800000x64_1_0_n_n_0_1_164_wf : GatherDims.WF S50000x64 S800000x1 S800000x64 [1] [0] [] [0] [] 1 ![1, 64]
  dot_S4000x32_S32x128_S4000x128_1_0_0_1_n_n_wf : DotDims.WF S4000x32 S32x128 S4000x128 [1] [0] [0] [1] [] []
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S800000x32.size a
  hwx0_0 : ∀ i : grid0.Coords, EltTy.bits .f32 = 32 ∨ (Rect.block (s := S800000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .f32 = 32 ∨ (Rect.block (s := S160x128) S160x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S800000x64.size a
  hwx0_7 : ∀ i : grid0.Coords, EltTy.bits .f32 = 32 ∨ (Rect.block (s := S800000x64) S4000x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg2) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S800000x128 : Shape := ⟨2, ![800000, 128]⟩
abbrev S1x128 : Shape := ⟨2, ![1, 128]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x160, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x32_S800000x64_S800000x64_S800000x160_d1 : Shape.Concatenates [S800000x32, S800000x64, S800000x64] S800000x160 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.EdgeMlp.lean ====
/-
  One edge of the message-passing layer, on the extended reals.

  An edge carries 32 features of its own and the 64 features of each of its two end nodes. The layer
  multiplies the 160 numbers by a 160 x 128 matrix, adds a bias, clamps below at zero, multiplies by a
  128 x 64 matrix and adds a second bias. `hidden` and `rowOut` write the first product as three
  partial sums: over the matrix rows 0..31 that meet the edge's own features, the rows 32..95 that meet
  the source node's, and the rows 96..159 that meet the target node's. `sum_three_pieces` is the one
  law that joins this to the single sum over all 160 rows: addition is commutative and associative, so a
  finite sum may be cut into consecutive pieces. It holds in every commutative monoid, hence on the
  extended reals with no assumption that a term is finite.

  `layer` is the same on whole arrays: output row `r` is `rowOut` of row `r` of each of the three
  feature arrays.
-/
import Idealize.ShloMosaic.PureOps.Ideal
import Idealize.ShloMosaic.Lib.ValueIdx

noncomputable section

open scoped BigOperators

namespace Cert.EdgeMlp

open Idealize.ShloMosaic Idealize.ShloMosaic.ValueIdx

/-- Matrix row `j` among the 32 that meet the edge's own features. -/
abbrev rowE (j : Fin 32) : Fin 160 := ⟨j.val, by have := j.isLt; omega⟩
/-- Matrix row `32 + j`: the 64 rows that meet the source node's features. -/
abbrev rowS (j : Fin 64) : Fin 160 := ⟨32 + j.val, by have := j.isLt; omega⟩
/-- Matrix row `96 + j`: the 64 rows that meet the target node's features. -/
abbrev rowT (j : Fin 64) : Fin 160 := ⟨96 + j.val, by have := j.isLt; omega⟩

/-- A sum over 160 terms is the sum of its first 32, its next 64 and its last 64. -/
theorem sum_three_pieces {M : Type*} [AddCommMonoid M] (f : Fin 160 → M) :
    ∑ k, f k = ((∑ j, f (rowE j)) + ∑ j, f (rowS j)) + ∑ j, f (rowT j) := by
  have h1 : ∑ k : Fin (96 + 64), f k
      = ∑ i : Fin 96, f (Fin.castAdd 64 i) + ∑ i : Fin 64, f (Fin.natAdd 96 i) := Fin.sum_univ_add _
  have h2 : ∑ i : Fin (32 + 64), f (Fin.castAdd 64 i)
      = ∑ j : Fin 32, f (Fin.castAdd 64 (Fin.castAdd 64 j)) + ∑ j : Fin 64, f (Fin.castAdd 64 (Fin.natAdd 32 j)) :=
    Fin.sum_univ_add _
  exact h1.trans (congrArg (· + ∑ i : Fin 64, f (Fin.natAdd 96 i)) h2)

/-- The first layer of one edge before the clamp, at hidden unit `k`: the three partial products, then the bias. -/
def hidden (e : Fin 32 → EReal) (s t : Fin 64 → EReal) (w1 : Fin 160 → Fin 128 → EReal) (b1 : Fin 128 → EReal)
    (k : Fin 128) : EReal :=
  (((∑ j, e j * w1 (rowE j) k) + ∑ j, s j * w1 (rowS j) k) + ∑ j, t j * w1 (rowT j) k) + b1 k

/-- One edge's output at unit `q`: the clamped hidden units times the second matrix, plus the second bias. -/
def rowOut (e : Fin 32 → EReal) (s t : Fin 64 → EReal) (w1 : Fin 160 → Fin 128 → EReal) (b1 : Fin 128 → EReal)
    (w2 : Fin 128 → Fin 64 → EReal) (b2 : Fin 64 → EReal) (q : Fin 64) : EReal :=
  (∑ k, max (hidden e s t w1 b1 k) 0 * w2 k q) + b2 q

/-- `rowOut` depends on its seven arguments only through their values. -/
theorem rowOut_congr {e e' : Fin 32 → EReal} {s s' t t' : Fin 64 → EReal} {w1 w1' : Fin 160 → Fin 128 → EReal}
    {b1 b1' : Fin 128 → EReal} {w2 w2' : Fin 128 → Fin 64 → EReal} {b2 b2' : Fin 64 → EReal}
    (he : ∀ j, e j = e' j) (hs : ∀ j, s j = s' j) (ht : ∀ j, t j = t' j) (hw1 : ∀ a k, w1 a k = w1' a k)
    (hb1 : ∀ k, b1 k = b1' k) (hw2 : ∀ k n, w2 k n = w2' k n) (hb2 : ∀ n, b2 n = b2' n) (q : Fin 64) :
    rowOut e s t w1 b1 w2 b2 q = rowOut e' s' t' w1' b1' w2' b2' q := by
  obtain rfl : e = e' := funext he
  obtain rfl : s = s' := funext hs
  obtain rfl : t = t' := funext ht
  obtain rfl : w1 = w1' := funext fun a => funext (hw1 a)
  obtain rfl : b1 = b1' := funext hb1
  obtain rfl : w2 = w2' := funext fun k => funext (hw2 k)
  obtain rfl : b2 = b2' := funext hb2
  rfl

/-- If `x` is the three feature vectors laid end to end, the single product over all 160 rows plus the bias
    is `hidden`. -/
theorem hidden_of_joined (e : Fin 32 → EReal) (s t : Fin 64 → EReal) (w1 : Fin 160 → Fin 128 → EReal)
    (b1 : Fin 128 → EReal) (x : Fin 160 → EReal) (he : ∀ j, x (rowE j) = e j) (hs : ∀ j, x (rowS j) = s j)
    (ht : ∀ j, x (rowT j) = t j) (k : Fin 128) :
    (∑ a, x a * w1 a k) + b1 k = hidden e s t w1 b1 k := by
  rw [sum_three_pieces]
  simp only [he, hs, ht]
  rfl

/-- The layer on whole arrays: row `r` of the result is `rowOut` of row `r` of the edge, source and target
    feature arrays. -/
def layer (e : (⟨2, ![800000, 32]⟩ : Shape).Idx → EReal) (s t : (⟨2, ![800000, 64]⟩ : Shape).Idx → EReal)
    (w1 : (⟨2, ![160, 128]⟩ : Shape).Idx → EReal) (b1 : (⟨1, ![128]⟩ : Shape).Idx → EReal)
    (w2 : (⟨2, ![128, 64]⟩ : Shape).Idx → EReal) (b2 : (⟨1, ![64]⟩ : Shape).Idx → EReal) :
    (⟨2, ![800000, 64]⟩ : Shape).Idx → EReal := fun i =>
  rowOut (fun j => e (ix2 (i 0) j)) (fun j => s (ix2 (i 0) j)) (fun j => t (ix2 (i 0) j))
    (fun a k => w1 (ix2 a k)) (fun k => b1 (ix1 k)) (fun k q => w2 (ix2 k q)) (fun q => b2 (ix1 q)) (i 1)

end Cert.EdgeMlp

end
-- ==== Proof.KernelRow.lean ====
/-
  What the kernel body stores, read at one entry of its output block.

  The body holds a block of 4000 edges: their own features (4000 x 32), their source rows and their
  target rows (4000 x 64 each), the whole first matrix (160 x 128), the first bias as a 1 x 128 row, the
  whole second matrix (128 x 64) and the second bias as a 1 x 64 row. It cuts the first matrix into its
  rows 0..31, 32..95 and 96..159 (`w1_edge_rows`, `w1_source_rows`, `w1_target_rows`), forms the three
  products into a zero accumulator (each a plain sum over the shared axis: `edge_product`,
  `node_product`), adds them and the bias row (`bias128_row`: the 1 x 128 row repeated down the 4000
  rows), clamps at zero, and forms the second product (`out_product`) plus the second bias row
  (`bias64_row`). The changes of float format in between are the identity on extended reals. So entry
  `(p, q)` of the stored block is `EdgeMlp.rowOut` of row `p` of the three feature blocks
  (`stored_entry`).
-/
import proofs.«100137_j29085518529107_1_alg».proof.Proof.Gen.KernelIdeal.Skeleton
import proofs.«100137_j29085518529107_1_alg».proof.Proof.EdgeMlp
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.TcCoe
open Idealize.ShloMosaic.ValueIdx Cert.EdgeMlp

/-! ## The three products' operand indices, axis by axis -/

theorem lhs_edge_0 (i : S4000x128.Idx) (c : dot_S4000x32_S32x128_S4000x128_1_0_0_1_n_n.contr.Idx) :
    (dot_S4000x32_S32x128_S4000x128_1_0_0_1_n_n.lhsIdx i c 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
theorem lhs_edge_1 (i : S4000x128.Idx) (c : dot_S4000x32_S32x128_S4000x128_1_0_0_1_n_n.contr.Idx) :
    (dot_S4000x32_S32x128_S4000x128_1_0_0_1_n_n.lhsIdx i c 1).val = (c ⟨0, by decide⟩).val :=
  dot_S4000x32_S32x128_S4000x128_1_0_0_1_n_n.lhsIdx_val_of_single rfl i c
theorem rhs_edge_0 (i : S4000x128.Idx) (c : dot_S4000x32_S32x128_S4000x128_1_0_0_1_n_n.contr.Idx) :
    (dot_S4000x32_S32x128_S4000x128_1_0_0_1_n_n.rhsIdx i c 0).val = (c ⟨0, by decide⟩).val :=
  dot_S4000x32_S32x128_S4000x128_1_0_0_1_n_n.rhsIdx_val_of_single rfl i c
theorem rhs_edge_1 (i : S4000x128.Idx) (c : dot_S4000x32_S32x128_S4000x128_1_0_0_1_n_n.contr.Idx) :
    (dot_S4000x32_S32x128_S4000x128_1_0_0_1_n_n.rhsIdx i c 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

theorem lhs_node_0 (i : S4000x128.Idx) (c : dot_S4000x64_S64x128_S4000x128_1_0_0_1_n_n.contr.Idx) :
    (dot_S4000x64_S64x128_S4000x128_1_0_0_1_n_n.lhsIdx i c 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_node_1 (i : S4000x128.Idx) (c : dot_S4000x64_S64x128_S4000x128_1_0_0_1_n_n.contr.Idx) :
    (dot_S4000x64_S64x128_S4000x128_1_0_0_1_n_n.lhsIdx i c 1).val = (c ⟨0, by decide⟩).val :=
  dot_S4000x64_S64x128_S4000x128_1_0_0_1_n_n.lhsIdx_val_of_single rfl i c
theorem rhs_node_0 (i : S4000x128.Idx) (c : dot_S4000x64_S64x128_S4000x128_1_0_0_1_n_n.contr.Idx) :
    (dot_S4000x64_S64x128_S4000x128_1_0_0_1_n_n.rhsIdx i c 0).val = (c ⟨0, by decide⟩).val :=
  dot_S4000x64_S64x128_S4000x128_1_0_0_1_n_n.rhsIdx_val_of_single rfl i c
theorem rhs_node_1 (i : S4000x128.Idx) (c : dot_S4000x64_S64x128_S4000x128_1_0_0_1_n_n.contr.Idx) :
    (dot_S4000x64_S64x128_S4000x128_1_0_0_1_n_n.rhsIdx i c 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

theorem lhs_out_0 (i : S4000x64.Idx) (c : dot_S4000x128_S128x64_S4000x64_1_0_0_1_n_n.contr.Idx) :
    (dot_S4000x128_S128x64_S4000x64_1_0_0_1_n_n.lhsIdx i c 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_out_1 (i : S4000x64.Idx) (c : dot_S4000x128_S128x64_S4000x64_1_0_0_1_n_n.contr.Idx) :
    (dot_S4000x128_S128x64_S4000x64_1_0_0_1_n_n.lhsIdx i c 1).val = (c ⟨0, by decide⟩).val :=
  dot_S4000x128_S128x64_S4000x64_1_0_0_1_n_n.lhsIdx_val_of_single rfl i c
theorem rhs_out_0 (i : S4000x64.Idx) (c : dot_S4000x128_S128x64_S4000x64_1_0_0_1_n_n.contr.Idx) :
    (dot_S4000x128_S128x64_S4000x64_1_0_0_1_n_n.rhsIdx i c 0).val = (c ⟨0, by decide⟩).val :=
  dot_S4000x128_S128x64_S4000x64_1_0_0_1_n_n.rhsIdx_val_of_single rfl i c
theorem rhs_out_1 (i : S4000x64.Idx) (c : dot_S4000x128_S128x64_S4000x64_1_0_0_1_n_n.contr.Idx) :
    (dot_S4000x128_S128x64_S4000x64_1_0_0_1_n_n.rhsIdx i c 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-! ## Each product into the zero accumulator is the sum over the shared axis -/

/-- The 4000 x 32 by 32 x 128 product at `(p, n)`. -/
theorem edge_product (l : FVec Ideal S4000x32 .bf16) (r : FVec Ideal S32x128 .bf16) (p : Fin 4000) (n : Fin 128) :
    matmul dot_S4000x32_S32x128_S4000x128_1_0_0_1_n_n none l r (constant (F := Ideal) S4000x128 .f32 0x00000000#32) (ix2 p n)
      = ∑ j : Fin 32, l (ix2 p j) * r (ix2 j n) := by
  simp only [matmul]
  rw [Ideal.matmul_constant_zero_apply, ← Equiv.sum_comp (contrEquiv1 dot_S4000x32_S32x128_S4000x128_1_0_0_1_n_n 32 rfl rfl).symm]
  refine Finset.sum_congr rfl fun j _ => ?_
  have hj := contrEquiv1_symm_val dot_S4000x32_S32x128_S4000x128_1_0_0_1_n_n 32 rfl rfl j
  have el : dot_S4000x32_S32x128_S4000x128_1_0_0_1_n_n.lhsIdx (ix2 p n) ((contrEquiv1 dot_S4000x32_S32x128_S4000x128_1_0_0_1_n_n 32 rfl rfl).symm j) = ix2 p j := funext fun a => Fin.ext (by
    match a with
    | ⟨0, _⟩ => exact lhs_edge_0 _ _
    | ⟨1, _⟩ => exact (lhs_edge_1 _ _).trans hj)
  have er : dot_S4000x32_S32x128_S4000x128_1_0_0_1_n_n.rhsIdx (ix2 p n) ((contrEquiv1 dot_S4000x32_S32x128_S4000x128_1_0_0_1_n_n 32 rfl rfl).symm j) = ix2 j n := funext fun a => Fin.ext (by
    match a with
    | ⟨0, _⟩ => exact (rhs_edge_0 _ _).trans hj
    | ⟨1, _⟩ => exact rhs_edge_1 _ _)
  rw [el, er]

/-- The 4000 x 64 by 64 x 128 product at `(p, n)`. -/
theorem node_product (l : FVec Ideal S4000x64 .bf16) (r : FVec Ideal S64x128 .bf16) (p : Fin 4000) (n : Fin 128) :
    matmul dot_S4000x64_S64x128_S4000x128_1_0_0_1_n_n none l r (constant (F := Ideal) S4000x128 .f32 0x00000000#32) (ix2 p n)
      = ∑ j : Fin 64, l (ix2 p j) * r (ix2 j n) := by
  simp only [matmul]
  rw [Ideal.matmul_constant_zero_apply, ← Equiv.sum_comp (contrEquiv1 dot_S4000x64_S64x128_S4000x128_1_0_0_1_n_n 64 rfl rfl).symm]
  refine Finset.sum_congr rfl fun j _ => ?_
  have hj := contrEquiv1_symm_val dot_S4000x64_S64x128_S4000x128_1_0_0_1_n_n 64 rfl rfl j
  have el : dot_S4000x64_S64x128_S4000x128_1_0_0_1_n_n.lhsIdx (ix2 p n) ((contrEquiv1 dot_S4000x64_S64x128_S4000x128_1_0_0_1_n_n 64 rfl rfl).symm j) = ix2 p j := funext fun a => Fin.ext (by
    match a with
    | ⟨0, _⟩ => exact lhs_node_0 _ _
    | ⟨1, _⟩ => exact (lhs_node_1 _ _).trans hj)
  have er : dot_S4000x64_S64x128_S4000x128_1_0_0_1_n_n.rhsIdx (ix2 p n) ((contrEquiv1 dot_S4000x64_S64x128_S4000x128_1_0_0_1_n_n 64 rfl rfl).symm j) = ix2 j n := funext fun a => Fin.ext (by
    match a with
    | ⟨0, _⟩ => exact (rhs_node_0 _ _).trans hj
    | ⟨1, _⟩ => exact rhs_node_1 _ _)
  rw [el, er]

/-- The 4000 x 128 by 128 x 64 product at `(p, n)`. -/
theorem out_product (l : FVec Ideal S4000x128 .bf16) (r : FVec Ideal S128x64 .bf16) (p : Fin 4000) (n : Fin 64) :
    matmul dot_S4000x128_S128x64_S4000x64_1_0_0_1_n_n none l r (constant (F := Ideal) S4000x64 .f32 0x00000000#32) (ix2 p n)
      = ∑ j : Fin 128, l (ix2 p j) * r (ix2 j n) := by
  simp only [matmul]
  rw [Ideal.matmul_constant_zero_apply, ← Equiv.sum_comp (contrEquiv1 dot_S4000x128_S128x64_S4000x64_1_0_0_1_n_n 128 rfl rfl).symm]
  refine Finset.sum_congr rfl fun j _ => ?_
  have hj := contrEquiv1_symm_val dot_S4000x128_S128x64_S4000x64_1_0_0_1_n_n 128 rfl rfl j
  have el : dot_S4000x128_S128x64_S4000x64_1_0_0_1_n_n.lhsIdx (ix2 p n) ((contrEquiv1 dot_S4000x128_S128x64_S4000x64_1_0_0_1_n_n 128 rfl rfl).symm j) = ix2 p j := funext fun a => Fin.ext (by
    match a with
    | ⟨0, _⟩ => exact lhs_out_0 _ _
    | ⟨1, _⟩ => exact (lhs_out_1 _ _).trans hj)
  have er : dot_S4000x128_S128x64_S4000x64_1_0_0_1_n_n.rhsIdx (ix2 p n) ((contrEquiv1 dot_S4000x128_S128x64_S4000x64_1_0_0_1_n_n 128 rfl rfl).symm j) = ix2 j n := funext fun a => Fin.ext (by
    match a with
    | ⟨0, _⟩ => exact (rhs_out_0 _ _).trans hj
    | ⟨1, _⟩ => exact rhs_out_1 _ _)
  rw [el, er]

/-! ## The cuts of the first matrix, and the bias rows -/

/-- Rows 0..31 of the first matrix. -/
theorem w1_edge_rows (w : FVec Ideal S160x128 .bf16) (j : Fin 32) (n : Fin 128) :
    extractStridedSlice S32x128 ![0, 0] w Facts₀.slices_S160x128_o0_0_S32x128 (ix2 j n) = w (ix2 (rowE j) n) :=
  extractStridedSlice_apply ![0, 0] w _ (ix2 j n) (ix2 (rowE j) n) (fun a => by
    match a with
    | ⟨0, _⟩ => show j.val = 0 + j.val; omega
    | ⟨1, _⟩ => show n.val = 0 + n.val; omega)

/-- Rows 32..95 of the first matrix. -/
theorem w1_source_rows (w : FVec Ideal S160x128 .bf16) (j : Fin 64) (n : Fin 128) :
    extractStridedSlice S64x128 ![32, 0] w Facts₀.slices_S160x128_o32_0_S64x128 (ix2 j n) = w (ix2 (rowS j) n) :=
  extractStridedSlice_apply ![32, 0] w _ (ix2 j n) (ix2 (rowS j) n) (fun a => by
    match a with
    | ⟨0, _⟩ => rfl
    | ⟨1, _⟩ => show n.val = 0 + n.val; omega)

/-- Rows 96..159 of the first matrix. -/
theorem w1_target_rows (w : FVec Ideal S160x128 .bf16) (j : Fin 64) (n : Fin 128) :
    extractStridedSlice S64x128 ![96, 0] w Facts₀.slices_S160x128_o96_0_S64x128 (ix2 j n) = w (ix2 (rowT j) n) :=
  extractStridedSlice_apply ![96, 0] w _ (ix2 j n) (ix2 (rowT j) n) (fun a => by
    match a with
    | ⟨0, _⟩ => rfl
    | ⟨1, _⟩ => show n.val = 0 + n.val; omega)

/-- The 1 x 128 bias row repeated down the block's 4000 rows. -/
theorem bias128_row {α : Type} (b : S1x128.Idx → α) (p : Fin 4000) (n : Fin 128) :
    broadcastTo S4000x128 b Facts₀.broadcasts_S1x128_S4000x128 (ix2 p n) = b (ix2 0 n) := by
  exact broadcastTo_apply b _ (ix2 p n) (ix2 0 n) (fun a => by
    match a with
    | ⟨0, _⟩ => show 0 = if (1 : Nat) = 1 then 0 else _; rw [if_pos rfl]
    | ⟨1, _⟩ => show n.val = if (128 : Nat) = 1 then 0 else _; rw [if_neg (by decide)]; rfl)

/-- The 1 x 64 bias row repeated down the block's 4000 rows. -/
theorem bias64_row {α : Type} (b : S1x64.Idx → α) (p : Fin 4000) (n : Fin 64) :
    broadcastTo S4000x64 b Facts₀.broadcasts_S1x64_S4000x64 (ix2 p n) = b (ix2 0 n) := by
  exact broadcastTo_apply b _ (ix2 p n) (ix2 0 n) (fun a => by
    match a with
    | ⟨0, _⟩ => show 0 = if (1 : Nat) = 1 then 0 else _; rw [if_pos rfl]
    | ⟨1, _⟩ => show n.val = if (64 : Nat) = 1 then 0 else _; rw [if_neg (by decide)]; rfl)

/-! ## The stored block, entry by entry -/

/-- Entry `(p, q)` of what the body stores is one edge's output: `rowOut` of row `p` of the feature blocks. -/
theorem stored_entry (v0 : Vec Ideal S4000x32 .f32) (v2 v5 : Vec Ideal S4000x64 .f32) (v8 : Vec Ideal S160x128 .f32)
    (v18 : Vec Ideal S1x128 .f32) (v25 : Vec Ideal S128x64 .f32) (v28 : Vec Ideal S1x64 .f32) (p : Fin 4000) (q : Fin 64) :
    k0_pay1 (F := Ideal) v0 v2 v5 v8 v18 v25 v28 (ix2 p q)
      = rowOut (fun j => v0 (ix2 p j)) (fun j => v2 (ix2 p j)) (fun j => v5 (ix2 p j)) (fun a n => v8 (ix2 a n))
          (fun n => v18 (ix2 0 n)) (fun k n => v25 (ix2 k n)) (fun n => v28 (ix2 0 n)) q := by
  unfold k0_pay1 Cert.EdgeMlp.rowOut Cert.EdgeMlp.hidden
  simp only [addf_apply, out_product, edge_product, node_product, truncf_apply, maximumf_apply, broadcast_apply,
    shapeCast_self, w1_edge_rows, w1_source_rows, w1_target_rows, bias128_row, bias64_row, Ideal.ofBits_def,
    Ideal.ofBits_zero_f32]

end Cert.KernelIdeal.Row

end
-- ==== Proof.KernelArray.lean ====
/-
  The kernel program's result array is `EdgeMlp.layer` of the arrays its one region reads.

  The region runs over 200 grid points. At point `t` the three feature windows hold rows
  `4000 t .. 4000 t + 3999` of their arrays (`edge_block`, `source_block`, `target_block`), the two
  matrices and the two bias rows are held whole at every point (`w1_block`, `b1_block`, `w2_block`,
  `b2_block`), and the output window writes back rows `4000 t .. 4000 t + 3999` of the result. By
  `Row.stored_entry` what point `t` writes at `(p, q)` is one edge's output of row `4000 t + p`, so
  each point writes its block of `layer` (`flushed_eq`). Row `r` of the result lies in the block of point
  `r / 4000`, so the 200 blocks cover the array (`final`), and the array ends holding `layer`.
  The bias rows the region reads are the bias arguments laid out as one row (`b1_entry`, `b2_entry`), and
  the other windows' arrays, apart from the two gathered ones, are arguments as launched
  (`result_of_args`).
-/
import proofs.«100137_j29085518529107_1_alg».proof.Proof.Gen.KernelIdeal.Value
import proofs.«100137_j29085518529107_1_alg».proof.Proof.KernelRow
import Idealize.ShloMosaic.Lib.StableHlo.Run

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices at every grid point: the three feature windows and the output move down one
    block per point, the matrices and bias rows stay at block (0, 0). Decided over the 200 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array row that row `p` of point `t`'s block is. -/
abbrev edgeRow (t : Fin cfg0.N) (p : Fin 4000) : Fin 800000 :=
  ⟨4000 * t.val + p.val, by have h1 := t.isLt; have hN : cfg0.N = 200 := N_0; have h2 := p.isLt; omega⟩

/-! ## Each window's block at a point, as entries of its array -/

/-- Rows `4000 t ..` of the edge features. -/
theorem edge_block (c : Dev nD) (t : Fin cfg0.N) (p : Fin 4000) (j : Fin 32) :
    (iblk m c 0 t : Vec Ideal S4000x32 .f32) (ix2 p j)
      = (V m c main_arg2 : S800000x32.Idx → EReal) (ix2 (edgeRow t p) j) := by
  obtain ⟨e00, e01, e10, e11, e20, e21, e30, e31, e40, e41, e50, e51, e60, e61, e70, e71⟩ := idx_facts t
  show V m c main_arg2 (((cfg0.win 0).blk t).view.emb (ix2 p j)) = V m c main_arg2 (ix2 (edgeRow t p) j)
  refine congrArg _ (funext fun d => Fin.ext ?_)
  match d with
  | ⟨0, _⟩ => show win0_0.index t (0 : Fin 2) * 4000 + 1 * p.val = 4000 * t.val + p.val; omega
  | ⟨1, _⟩ => show win0_0.index t (1 : Fin 2) * 32 + 1 * j.val = j.val; omega

/-- Rows `4000 t ..` of the gathered source rows. -/
theorem source_block (c : Dev nD) (t : Fin cfg0.N) (p : Fin 4000) (j : Fin 64) :
    (iblk m c 1 t : Vec Ideal S4000x64 .f32) (ix2 p j)
      = (V m c main_v10 : S800000x64.Idx → EReal) (ix2 (edgeRow t p) j) := by
  obtain ⟨e00, e01, e10, e11, e20, e21, e30, e31, e40, e41, e50, e51, e60, e61, e70, e71⟩ := idx_facts t
  show V m c main_v10 (((cfg0.win 1).blk t).view.emb (ix2 p j)) = V m c main_v10 (ix2 (edgeRow t p) j)
  refine congrArg _ (funext fun d => Fin.ext ?_)
  match d with
  | ⟨0, _⟩ => show win0_1.index t (0 : Fin 2) * 4000 + 1 * p.val = 4000 * t.val + p.val; omega
  | ⟨1, _⟩ => show win0_1.index t (1 : Fin 2) * 64 + 1 * j.val = j.val; omega

/-- Rows `4000 t ..` of the gathered target rows. -/
theorem target_block (c : Dev nD) (t : Fin cfg0.N) (p : Fin 4000) (j : Fin 64) :
    (iblk m c 2 t : Vec Ideal S4000x64 .f32) (ix2 p j)
      = (V m c main_v17 : S800000x64.Idx → EReal) (ix2 (edgeRow t p) j) := by
  obtain ⟨e00, e01, e10, e11, e20, e21, e30, e31, e40, e41, e50, e51, e60, e61, e70, e71⟩ := idx_facts t
  show V m c main_v17 (((cfg0.win 2).blk t).view.emb (ix2 p j)) = V m c main_v17 (ix2 (edgeRow t p) j)
  refine congrArg _ (funext fun d => Fin.ext ?_)
  match d with
  | ⟨0, _⟩ => show win0_2.index t (0 : Fin 2) * 4000 + 1 * p.val = 4000 * t.val + p.val; omega
  | ⟨1, _⟩ => show win0_2.index t (1 : Fin 2) * 64 + 1 * j.val = j.val; omega

/-- The whole first matrix. -/
theorem w1_block (c : Dev nD) (t : Fin cfg0.N) (a : Fin 160) (n : Fin 128) :
    (iblk m c 3 t : Vec Ideal S160x128 .f32) (ix2 a n)
      = (V m c main_arg3 : S160x128.Idx → EReal) (ix2 a n) := by
  obtain ⟨e00, e01, e10, e11, e20, e21, e30, e31, e40, e41, e50, e51, e60, e61, e70, e71⟩ := idx_facts t
  show V m c main_arg3 (((cfg0.win 3).blk t).view.emb (ix2 a n)) = V m c main_arg3 (ix2 a n)
  refine congrArg _ (funext fun d => Fin.ext ?_)
  match d with
  | ⟨0, _⟩ => show win0_3.index t (0 : Fin 2) * 160 + 1 * a.val = a.val; omega
  | ⟨1, _⟩ => show win0_3.index t (1 : Fin 2) * 128 + 1 * n.val = n.val; omega

/-- The whole first bias row. -/
theorem b1_block (c : Dev nD) (t : Fin cfg0.N) (z : Fin 1) (n : Fin 128) :
    (iblk m c 4 t : Vec Ideal S1x128 .f32) (ix2 z n)
      = (V m c main_v18 : S1x128.Idx → EReal) (ix2 z n) := by
  obtain ⟨e00, e01, e10, e11, e20, e21, e30, e31, e40, e41, e50, e51, e60, e61, e70, e71⟩ := idx_facts t
  show V m c main_v18 (((cfg0.win 4).blk t).view.emb (ix2 z n)) = V m c main_v18 (ix2 z n)
  refine congrArg _ (funext fun d => Fin.ext ?_)
  match d with
  | ⟨0, _⟩ => show win0_4.index t (0 : Fin 2) * 1 + 1 * z.val = z.val; omega
  | ⟨1, _⟩ => show win0_4.index t (1 : Fin 2) * 128 + 1 * n.val = n.val; omega

/-- The whole second matrix. -/
theorem w2_block (c : Dev nD) (t : Fin cfg0.N) (k : Fin 128) (n : Fin 64) :
    (iblk m c 5 t : Vec Ideal S128x64 .f32) (ix2 k n)
      = (V m c main_arg5 : S128x64.Idx → EReal) (ix2 k n) := by
  obtain ⟨e00, e01, e10, e11, e20, e21, e30, e31, e40, e41, e50, e51, e60, e61, e70, e71⟩ := idx_facts t
  show V m c main_arg5 (((cfg0.win 5).blk t).view.emb (ix2 k n)) = V m c main_arg5 (ix2 k n)
  refine congrArg _ (funext fun d => Fin.ext ?_)
  match d with
  | ⟨0, _⟩ => show win0_5.index t (0 : Fin 2) * 128 + 1 * k.val = k.val; omega
  | ⟨1, _⟩ => show win0_5.index t (1 : Fin 2) * 64 + 1 * n.val = n.val; omega

/-- The whole second bias row. -/
theorem b2_block (c : Dev nD) (t : Fin cfg0.N) (z : Fin 1) (n : Fin 64) :
    (iblk m c 6 t : Vec Ideal S1x64 .f32) (ix2 z n)
      = (V m c main_v19 : S1x64.Idx → EReal) (ix2 z n) := by
  obtain ⟨e00, e01, e10, e11, e20, e21, e30, e31, e40, e41, e50, e51, e60, e61, e70, e71⟩ := idx_facts t
  show V m c main_v19 (((cfg0.win 6).blk t).view.emb (ix2 z n)) = V m c main_v19 (ix2 z n)
  refine congrArg _ (funext fun d => Fin.ext ?_)
  match d with
  | ⟨0, _⟩ => show win0_6.index t (0 : Fin 2) * 1 + 1 * z.val = z.val; omega
  | ⟨1, _⟩ => show win0_6.index t (1 : Fin 2) * 64 + 1 * n.val = n.val; omega

/-! ## What each point writes back, and the array at the end -/

/-- The layer of the arrays as the region finds them. -/
abbrev regionResult (c : Dev nD) : S800000x64.Idx → EReal :=
  layer (V m c main_arg2) (V m c main_v10) (V m c main_v17) (V m c main_arg3)
    (fun i => (V m c main_v18 : S1x128.Idx → EReal) (ix2 0 (i 0))) (V m c main_arg5)
    (fun i => (V m c main_v19 : S1x64.Idx → EReal) (ix2 0 (i 0)))

/-- Point `t` writes back its block of `regionResult`. -/
theorem flushed_eq (c : Dev nD) (t : Fin cfg0.N) :
    (dats m 0 c).flushed 7 t = ((cfg0.win 7).blk t).view.read (Elt Ideal) (regionResult m c) := by
  rw [Cert.KernelIdeal.Value.flushed7]
  unfold out0_7
  rw [View.canon_unit_zero zero_offsets]
  simp only [View.ld_unit_zero (S := S4000x32) zero_offsets, View.ld_unit_zero (S := S4000x64) zero_offsets,
    View.ld_unit_zero (S := S160x128) zero_offsets, View.ld_unit_zero (S := S1x128) zero_offsets,
    View.ld_unit_zero (S := S128x64) zero_offsets, View.ld_unit_zero (S := S1x64) zero_offsets]
  obtain ⟨e00, e01, e10, e11, e20, e21, e30, e31, e40, e41, e50, e51, e60, e61, e70, e71⟩ := idx_facts t
  funext y
  obtain ⟨p, q, rfl⟩ : ∃ (p : Fin 4000) (q : Fin 64), y = ix2 p q := ⟨y 0, y 1, eq_ix2 y⟩
  show k0_pay1 (F := Ideal) (iblk m c 0 t) (iblk m c 1 t) (iblk m c 2 t) (iblk m c 3 t) (iblk m c 4 t) (iblk m c 5 t)
      (iblk m c 6 t) (ix2 p q) = regionResult m c (((cfg0.win 7).blk t).view.emb (ix2 p q))
  have hemb : ((cfg0.win 7).blk t).view.emb (ix2 p q) = ix2 (edgeRow t p) q := funext fun a => Fin.ext (by
    match a with
    | ⟨0, _⟩ => show win0_7.index t (0 : Fin 2) * 4000 + 1 * p.val = 4000 * t.val + p.val; omega
    | ⟨1, _⟩ => show win0_7.index t (1 : Fin 2) * 64 + 1 * q.val = q.val; omega)
  rw [hemb]
  refine (Cert.KernelIdeal.Row.stored_entry (iblk m c 0 t) (iblk m c 1 t) (iblk m c 2 t) (iblk m c 3 t) (iblk m c 4 t)
    (iblk m c 5 t) (iblk m c 6 t) p q).trans ?_
  exact rowOut_congr (edge_block m c t p) (source_block m c t p) (target_block m c t p) (w1_block m c t)
    (b1_block m c t 0) (w2_block m c t) (b2_block m c t 0) q

/-- An index is in point `t`'s output block iff each coordinate is in the block's range. -/
theorem mem_out_block (t : Fin cfg0.N) (i : S800000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v20).slice (win0_7.rect t)).set ↔ _
  rw [View.set_slice_whole, Rect.mem_set_unit]
  exact Iff.rfl

/-- The 200 output blocks cover the array: row `r` is in the block of point `r / 4000`. So the array ends
    holding `regionResult`. -/
theorem final (c : Dev nD) : (dats m 0 c).arrAt 7 cfg0.N = regionResult m c :=
  (dats m 0 c).arrAt_eq_of_cover 7 (regionResult m c) (fun t _ => flushed_eq m c t) fun (i : S800000x64.Idx) => by
    have hi0 : (i 0).val < 800000 := (i 0).isLt
    have hi1 : (i 1).val < 64 := (i 1).isLt
    have hN : cfg0.N = 200 := N_0
    obtain ⟨t, ht⟩ : ∃ t : Fin cfg0.N, t.val = (i 0).val / 4000 := ⟨⟨(i 0).val / 4000, by omega⟩, rfl⟩
    obtain ⟨e00, e01, e10, e11, e20, e21, e30, e31, e40, e41, e50, e51, e60, e61, e70, e71⟩ := idx_facts t
    refine ⟨t, flush0_7 t, ?_⟩
    rw [mem_out_block]
    intro a
    match a with
    | ⟨0, _⟩ =>
      show win0_7.index t (0 : Fin 2) * 4000 ≤ (i 0).val ∧ (i 0).val < win0_7.index t (0 : Fin 2) * 4000 + 4000
      omega
    | ⟨1, _⟩ =>
      show win0_7.index t (1 : Fin 2) * 64 ≤ (i 1).val ∧ (i 1).val < win0_7.index t (1 : Fin 2) * 64 + 64
      omega

/-! ## The region-entry arrays in terms of the arguments -/

/-- The first bias row the region reads is the bias argument laid out as a 1 x 128 row. -/
theorem b1_entry (c : Dev nD) (n : Fin 128) :
    (V m c main_v18 : S1x128.Idx → EReal) (ix2 0 n) = (m ((c : Thread nD τ).loc main_arg4) : S128.Idx → EReal) (ix1 n) := by
  have e : (V m c main_v18 : S1x128.Idx → EReal)
      = shapeCast S1x128 (m ((c : Thread nD τ).loc main_arg4) : S128.Idx → EReal) Facts₀.shapeCasts_S128_S1x128 := by
    dsimp only [Gen.V, Gen.hostOps0]; after_results; rfl
  rw [e]
  exact shapeCast_apply _ _ (ix2 0 n) (ix1 n) (by
    rw [Shape.rowMajor_val_one, Shape.rowMajor_val_two]; show n.val = 0 * 128 + n.val; omega)

/-- The second bias row the region reads is the bias argument laid out as a 1 x 64 row. -/
theorem b2_entry (c : Dev nD) (n : Fin 64) :
    (V m c main_v19 : S1x64.Idx → EReal) (ix2 0 n) = (m ((c : Thread nD τ).loc main_arg6) : S64.Idx → EReal) (ix1 n) := by
  have e : (V m c main_v19 : S1x64.Idx → EReal)
      = shapeCast S1x64 (m ((c : Thread nD τ).loc main_arg6) : S64.Idx → EReal) Facts₀.shapeCasts_S64_S1x64 := by
    dsimp only [Gen.V, Gen.hostOps0]; after_results; rfl
  rw [e]
  exact shapeCast_apply _ _ (ix2 0 n) (ix1 n) (by
    rw [Shape.rowMajor_val_one, Shape.rowMajor_val_two]; show n.val = 0 * 64 + n.val; omega)

/-- The layer of the arguments as launched and of the two gathered arrays. -/
abbrev argsResult (c : Dev nD) : S800000x64.Idx → EReal :=
  layer (m ((c : Thread nD τ).loc main_arg2)) (V m c main_v10) (V m c main_v17) (m ((c : Thread nD τ).loc main_arg3))
    (m ((c : Thread nD τ).loc main_arg4)) (m ((c : Thread nD τ).loc main_arg5)) (m ((c : Thread nD τ).loc main_arg6))

theorem result_of_args (c : Dev nD) : regionResult m c = argsResult m c := by
  funext i
  show rowOut _ _ _ _ _ _ _ (i 1) = rowOut _ _ _ _ _ _ _ (i 1)
  refine rowOut_congr (fun j => ?_) (fun _ => rfl) (fun _ => rfl) (fun a k => ?_) (fun k => b1_entry m c k)
    (fun k n => ?_) (fun n => b2_entry m c n) (i 1)
  · exact congrFun (V_main_arg2 m c) _
  · exact congrFun (V_main_arg3 m c) _
  · exact congrFun (V_main_arg5 m c) _

/-- The kernel program's run: the result array is `argsResult`, the arguments are unchanged. -/
theorem run : θ_run defs (onTc (τ := τ) (main (F := Ideal))) ⟨m, fun _ => 0, ρ⟩ fun r => ∀ c : Dev nD,
      r.2.mem ((c : Thread nD τ).loc main_v20) = argsResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_of_args m c)), (h c).2⟩)
    (Cert.KernelIdeal.Value.run_blocks m ρ)

end Cert.KernelIdeal.Array

end
-- ==== Proof.RefLayer.lean ====
/-
  The reference program's result is `EdgeMlp.layer` of its arguments and of its two gathered arrays.

  The reference lays each edge's 32 features, its source node's 64 and its target node's 64 end to end
  in one row of 160 (`joined_edge`, `joined_source`, `joined_target`: columns 0..31, 32..95 and 96..159
  of the joined array are the three arrays' columns), multiplies the row by the whole first matrix in
  one sum over 160, adds the bias and clamps at zero. By `EdgeMlp.hidden_of_joined` that single sum is
  the three partial sums of `EdgeMlp.hidden`. The second product and bias are `EdgeMlp.rowOut`'s as
  they stand. The two gathered arrays (rows of the node table picked by the edge list) are kept as
  they are: the kernel program forms them by the same operations, so nothing about which rows they pick
  is needed.
-/
import proofs.«100137_j29085518529107_1_alg».proof.Proof.Gen.ReferenceIdeal.Read
import proofs.«100137_j29085518529107_1_alg».proof.Proof.EdgeMlp

noncomputable section

open scoped BigOperators

namespace Cert.ReferenceIdeal.RefLayer

open Cert.ReferenceIdeal Cert.ReferenceIdeal.Gen Cert.ReferenceIdeal.Read Idealize.ShloMosaic Idealize.ShloMosaic.TcCoe
open Idealize.ShloMosaic.ValueIdx Cert.EdgeMlp

variable (x0 : (⟨S2x800000, .i32⟩ : BufTy).Contents (Elt Ideal)) (x1 : (⟨S50000x64, .f32⟩ : BufTy).Contents (Elt Ideal))
  (x2 : (⟨S800000x32, .f32⟩ : BufTy).Contents (Elt Ideal)) (x3 : (⟨S160x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- Columns 0..31 of the joined array are the edge features' columns. -/
theorem joined_edge (r : Fin 800000) (j : Fin 32) :
    val_main_v18 (F := Ideal) x0 x1 x2 (ix2 r (rowE j)) = x2 (ix2 r j) := by
  unfold val_main_v18
  exact concatenate_apply_piece (1 : Fin S800000x160.rank) _ _ (ix2 r (rowE j)) 0 (by show (0 : Nat) < 3; omega) S800000x32 x2 rfl rfl 0 rfl
    (ix2 r j) (fun b hb => by
      match b with
      | ⟨0, _⟩ => rfl
      | ⟨1, _⟩ => exact absurd rfl hb)
    (by show 0 + j.val = j.val; omega)

/-- Columns 32..95 of the joined array are the gathered source rows' columns. -/
theorem joined_source (r : Fin 800000) (j : Fin 64) :
    val_main_v18 (F := Ideal) x0 x1 x2 (ix2 r (rowS j)) = val_main_v8 (F := Ideal) x0 x1 (ix2 r j) := by
  unfold val_main_v18
  exact concatenate_apply_piece (1 : Fin S800000x160.rank) _ _ (ix2 r (rowS j)) 1 (by show (1 : Nat) < 3; omega) S800000x64
    (val_main_v8 (F := Ideal) x0 x1) rfl rfl 32 rfl
    (ix2 r j) (fun b hb => by
      match b with
      | ⟨0, _⟩ => rfl
      | ⟨1, _⟩ => exact absurd rfl hb)
    rfl

/-- Columns 96..159 of the joined array are the gathered target rows' columns. -/
theorem joined_target (r : Fin 800000) (j : Fin 64) :
    val_main_v18 (F := Ideal) x0 x1 x2 (ix2 r (rowT j)) = val_main_v17 (F := Ideal) x0 x1 (ix2 r j) := by
  unfold val_main_v18
  exact concatenate_apply_piece (1 : Fin S800000x160.rank) _ _ (ix2 r (rowT j)) 2 (by show (2 : Nat) < 3; omega) S800000x64
    (val_main_v17 (F := Ideal) x0 x1) rfl rfl 96 rfl
    (ix2 r j) (fun b hb => by
      match b with
      | ⟨0, _⟩ => rfl
      | ⟨1, _⟩ => exact absurd rfl hb)
    rfl

/-- The clamped first layer of the reference at row `r`, hidden unit `k`. -/
theorem clamped_hidden (r : Fin 800000) (k : Fin 128) :
    val_main_v23 (F := Ideal) x0 x1 x2 x3 x4 (ix2 r k)
      = max (hidden (fun j => x2 (ix2 r j)) (fun j => val_main_v8 (F := Ideal) x0 x1 (ix2 r j))
          (fun j => val_main_v17 (F := Ideal) x0 x1 (ix2 r j)) (fun a c => x3 (ix2 a c)) (fun c => x4 (ix1 c)) k) 0 := by
  have hl : ∀ a : Fin 160, lidx_main_v19 (ix2 r k) a = ix2 r a := fun a => funext fun d => Fin.ext (by
    match d with
    | ⟨0, _⟩ => rfl
    | ⟨1, _⟩ => rfl)
  have hr : ∀ a : Fin 160, ridx_main_v19 (ix2 r k) a = ix2 a k := fun a => funext fun d => Fin.ext (by
    match d with
    | ⟨0, _⟩ => rfl
    | ⟨1, _⟩ => rfl)
  have hb : idx_main_v20 (idx_main_v21 (ix2 r k)) = ix1 k := funext fun d => Fin.ext (by
    match d with
    | ⟨0, _⟩ => rfl)
  rw [val_main_v23_apply, val_main_v22_apply, val_main_call0_v0_apply, val_main_call0_cst_apply, val_main_v19_apply,
    val_main_v21_apply, val_main_v20_apply, hb]
  simp only [hl, hr]
  show max ((∑ a : Fin 160, val_main_v18 (F := Ideal) x0 x1 x2 (ix2 r a) * x3 (ix2 a k)) + x4 (ix1 k))
      (Ideal.ofBits .f32 0x00000000#32) = _
  rw [Ideal.ofBits_zero_f32]
  exact congrArg (max · 0) (hidden_of_joined _ _ _ (fun a c => x3 (ix2 a c)) (fun c => x4 (ix1 c))
    (fun a => val_main_v18 (F := Ideal) x0 x1 x2 (ix2 r a)) (joined_edge x0 x1 x2 r) (joined_source x0 x1 x2 r)
    (joined_target x0 x1 x2 r) k)

/-- The reference's result array is the layer of its arguments and its two gathered arrays. -/
theorem result_is_layer :
    val_main_v27 (F := Ideal) x0 x1 x2 x3 x4 x5 x6
      = layer x2 (val_main_v8 (F := Ideal) x0 x1) (val_main_v17 (F := Ideal) x0 x1) x3 x4 x5 x6 := by
  funext i
  obtain ⟨r, q, rfl⟩ : ∃ (r : Fin 800000) (q : Fin 64), i = ix2 r q := ⟨i 0, i 1, eq_ix2 i⟩
  have hl : ∀ k : Fin 128, lidx_main_v24 (ix2 r q) k = ix2 r k := fun k => funext fun d => Fin.ext (by
    match d with
    | ⟨0, _⟩ => rfl
    | ⟨1, _⟩ => rfl)
  have hr : ∀ k : Fin 128, ridx_main_v24 (ix2 r q) k = ix2 k q := fun k => funext fun d => Fin.ext (by
    match d with
    | ⟨0, _⟩ => rfl
    | ⟨1, _⟩ => rfl)
  have hb : idx_main_v25 (idx_main_v26 (ix2 r q)) = ix1 q := funext fun d => Fin.ext (by
    match d with
    | ⟨0, _⟩ => rfl)
  rw [val_main_v27_apply, val_main_v24_apply, val_main_v26_apply, val_main_v25_apply, hb]
  simp only [hl, hr, clamped_hidden]
  rfl

end Cert.ReferenceIdeal.RefLayer

end
-- ==== Proof.lean ====
/-
  An edge-wise two-layer network over a graph, against its plain reference.

  For each of 800000 edges both programs look up the 64 features of the edge's source node and of its
  target node in the node table (the same lookups, by the same operations, in both programs), and apply
  to the edge's own 32 features and those two rows: a 160 x 128 matrix, a bias, a clamp below at zero, a
  128 x 64 matrix and a second bias. The reference lays the three feature vectors end to end and takes
  one sum over the 160 rows of the first matrix. The kernel, working through the edges 4000 at a time,
  takes three sums, over the matrix rows 0..31, 32..95 and 96..159, and adds them. On the extended reals
  addition is commutative and associative, so the single sum is the sum of its three consecutive pieces
  (`EdgeMlp.sum_three_pieces`); nothing else differs, and no entry needs to be finite. Both results are
  `EdgeMlp.layer` of the arguments and the two looked-up arrays: `KernelIdeal.Array.run` for the kernel,
  `ReferenceIdeal.RefLayer.result_is_layer` for the reference, and `source_rows_eq`, `target_rows_eq`
  below for the looked-up arrays.

  The kernel program's idealization rewrote no operation, so there is nothing to preserve; each program
  terminates without fault and leaves its arguments as they were.
-/
import proofs.«100137_j29085518529107_1_alg».proof.Defs
import proofs.«100137_j29085518529107_1_alg».proof.Proof.Gen.Kernel
import proofs.«100137_j29085518529107_1_alg».proof.Proof.Gen.Kernel.Skeleton
import proofs.«100137_j29085518529107_1_alg».proof.Proof.Gen.Kernel.Launch
import proofs.«100137_j29085518529107_1_alg».proof.Proof.Gen.Kernel.Points
import proofs.«100137_j29085518529107_1_alg».proof.Proof.Gen.Kernel.Frame
import proofs.«100137_j29085518529107_1_alg».proof.Proof.Gen.KernelIdeal
import proofs.«100137_j29085518529107_1_alg».proof.Proof.Gen.KernelIdeal.Skeleton
import proofs.«100137_j29085518529107_1_alg».proof.Proof.Gen.KernelIdeal.Launch
import proofs.«100137_j29085518529107_1_alg».proof.Proof.Gen.KernelIdeal.Points
import proofs.«100137_j29085518529107_1_alg».proof.Proof.Gen.KernelIdeal.Frame
import proofs.«100137_j29085518529107_1_alg».proof.Proof.Gen.ReferenceIdeal
import proofs.«100137_j29085518529107_1_alg».proof.Proof.Gen.Pre_finite_inputs
import proofs.«100137_j29085518529107_1_alg».proof.Proof.Gen.KernelIdeal.Value
import proofs.«100137_j29085518529107_1_alg».proof.Proof.Gen.ReferenceIdeal.Run
import proofs.«100137_j29085518529107_1_alg».proof.Proof.Gen.ReferenceIdeal.Read
import proofs.«100137_j29085518529107_1_alg».proof.Proof.EdgeMlp
import proofs.«100137_j29085518529107_1_alg».proof.Proof.KernelRow
import proofs.«100137_j29085518529107_1_alg».proof.Proof.KernelArray
import proofs.«100137_j29085518529107_1_alg».proof.Proof.RefLayer
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-! ## The looked-up node rows are the same arrays in both programs -/

section Lookups
open Cert.KernelIdeal Cert.KernelIdeal.Gen

variable (m : (ℓ : Loc Cert.KernelIdeal.nD Cert.KernelIdeal.τ Cert.KernelIdeal.sig) → Buf (Elt Ideal) ℓ)

/-- The source rows the kernel's region reads are the reference's looked-up source rows of the same edge list
    and node table: the same operations in the same order. -/
theorem source_rows_eq (c : Dev Cert.KernelIdeal.nD) :
    (V m c main_v10 : S800000x64.Idx → EReal)
      = Cert.ReferenceIdeal.Read.val_main_v8 (F := Ideal) (m ((c : Thread nD τ).loc main_arg0)) (m ((c : Thread nD τ).loc main_arg1)) := by
  dsimp only [Gen.V, Gen.hostOps0]; after_results; rfl

/-- The same for the target rows. -/
theorem target_rows_eq (c : Dev Cert.KernelIdeal.nD) :
    (V m c main_v17 : S800000x64.Idx → EReal)
      = Cert.ReferenceIdeal.Read.val_main_v17 (F := Ideal) (m ((c : Thread nD τ).loc main_arg0)) (m ((c : Thread nD τ).loc main_arg1)) := by
  dsimp only [Gen.V, Gen.hostOps0]; after_results; rfl

end Lookups

/-! ## The claims -/

/-- Both programs end with `EdgeMlp.layer` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Array.argsResult m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.RefLayer.result_is_layer, h0, h1, h2, h3, h4, h5, h6,
    ← source_rows_eq m c, ← target_rows_eq m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
